-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S799273x128 : Shape := ⟨2, ![799273, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S799273x128 : S_.BroadcastsInDim S799273x128 (![] : Fin 0 → Fin S799273x128.rank)
  reducesTo_S799273x128_S_d0_1 : S799273x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S50000 32) (main_arg1 : IVec S800000 32) (main_arg2 : IVec S800000 32) (main_arg3 : FVec F S799273x128 .f32) (main_arg4 : FVec F S128x256 .f32) (main_arg5 : FVec F S256 .f32) (main_arg6 : FVec F S256x128 .f32) (main_arg7 : FVec F S128 .f32) : IVec S_ 1 :=
  let main_v0 : FVec F S799273x128 .f32 := Host.absf main_arg3
  let main_cst : FVec F S_ .f32 := constant S_ .f32 0x7F800000#32
  let main_v1 : FVec F S799273x128 .f32 := broadcastInDim S799273x128 ![] bcast_S_S799273x128 main_cst
  let main_v2 : IVec S799273x128 1 := cmpf .olt main_v0 main_v1
  let main_c : IVec S_ 1 := constantI S_ 1 1#1
  let main_v3 : IVec S_ 1 := (fun x v => Host.reduce IntOp.andi x v reducesTo_S799273x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_v13 main_v16
-- ==== Kernel.lean ====
abbrev S50000 : Shape := ⟨1, ![50000]⟩
abbrev S800000 : Shape := ⟨1, ![800000]⟩
abbrev S799273x128 : Shape := ⟨2, ![799273, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000x128 : Shape := ⟨2, ![800000, 128]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 45
  | .vmem => 12
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S799273x128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S50000, .i32⟩
  | .hbm, ⟨10, _⟩ => ⟨S50000, .i1⟩
  | .hbm, ⟨11, _⟩ => ⟨S_, .i32⟩
  | .hbm, ⟨12, _⟩ => ⟨S50000, .i32⟩
  | .hbm, ⟨13, _⟩ => ⟨S50000, .i32⟩
  | .hbm, ⟨14, _⟩ => ⟨S50000, .i32⟩
  | .hbm, ⟨15, _⟩ => ⟨S50000x1, .i32⟩
  | .hbm, ⟨16, _⟩ => ⟨S50000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x256, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .f32⟩
  | .hbm, ⟨40, _⟩ => ⟨S_, .f32⟩
  | .hbm, ⟨41, _⟩ => ⟨S50000x256, .f32⟩
  | .hbm, ⟨42, _⟩ => ⟨S800000x1, .i32⟩
  | .hbm, ⟨43, _⟩ => ⟨S50000x256, .f32⟩
  | .hbm, ⟨44, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S799273x128_S50000x1_S50000x128_1_0_n_n_0_1_1128_wf : GatherDims.WF S799273x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S799273x128_S50000x1_S50000x128_1_0_n_n_0_1_1128 : GatherDims S799273x128 S50000x1 S50000x128 where
  offsetDims := [1]
  collapsedSliceDims := [0]
  operandBatchingDims := []
  startIndicesBatchingDims := []
  startIndexMap := [0]
  indexVectorDim := 1
  sliceSizes := ![1, 128]
  wf := gather_S799273x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000 : Shape := ⟨1, ![50000]⟩
abbrev S800000 : Shape := ⟨1, ![800000]⟩
abbrev S799273x128 : Shape := ⟨2, ![799273, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S799273x128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S50000, .i32⟩
  | .hbm, ⟨10, _⟩ => ⟨S50000, .i1⟩
  | .hbm, ⟨11, _⟩ => ⟨S_, .i32⟩
  | .hbm, ⟨12, _⟩ => ⟨S50000, .i32⟩
  | .hbm, ⟨13, _⟩ => ⟨S50000, .i32⟩
  | .hbm, ⟨14, _⟩ => ⟨S50000, .i32⟩
  | .hbm, ⟨15, _⟩ => ⟨S50000x1, .i32⟩
  | .hbm, ⟨16, _⟩ => ⟨S50000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x256, .f32⟩
  | .hbm, ⟨31, _⟩ => ⟨S1x256, .f32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S50000x256, .f32⟩
  | .hbm, ⟨36, _⟩ => ⟨S50000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x256, .f32⟩
  | .hbm, ⟨46, _⟩ => ⟨S_, .f32⟩
  | .hbm, ⟨47, _⟩ => ⟨S50000x256, .f32⟩
  | .hbm, ⟨48, _⟩ => ⟨S800000x1, .i32⟩
  | .hbm, ⟨49, _⟩ => ⟨S50000x256, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S799273x128_S50000x1_S50000x128_1_0_n_n_0_1_1128_wf : GatherDims.WF S799273x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S799273x128_S50000x1_S50000x128_1_0_n_n_0_1_1128 : GatherDims S799273x128 S50000x1 S50000x128 where
  offsetDims := [1]
  collapsedSliceDims := [0]
  operandBatchingDims := []
  startIndicesBatchingDims := []
  startIndexMap := [0]
  indexVectorDim := 1
  sliceSizes := ![1, 128]
  wf := gather_S799273x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Spec.lean ====
/-
  One dense layer followed by the rectifier, read index by index over the extended reals.

  For an `[M, K]` array `x`, a `[K, N]` array `w` and a length-`N` bias `b`, the layer's output at
  row `r` and column `q` is
      max (∑ k, x[r, k] * w[k, q] + b[q]) 0.
  Row `r` of the output depends on row `r` of `x` only, so the layer computed on a block of rows is
  the same block of rows of the layer computed on the whole array. Three spellings of the layer are
  read here at an index: the accelerator's (both operands narrowed to bf16, which changes nothing
  over the extended reals; multiply-accumulate into the all-zero array; the bias as one row
  broadcast over the rows; the maximum against the splat of zero), and the host's (general dot
  product; the bias broadcast in two steps; the maximum against a broadcast scalar zero). The
  zero is kept as the word it is written with on both sides, so it is never evaluated.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«130371_j2637109919866_1_alg».proof.Proof.LibDot2

noncomputable section

open scoped BigOperators

namespace Idealize.ShloMosaic.DenseRelu

open Idealize.ShloMosaic Idealize.ShloMosaic.ValueIdx Idealize.ShloMosaic.Dot2

/-- The layer, index by index: `max (∑ k, x[r, k] * w[k, q] + b[q]) 0` at `(r, q)`. -/
def denseRelu {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (∑ k : Fin K, x (ix2 (i 0) k) * w (ix2 k (i 1)) + b (ix1 (i 1))) (Ideal.ofBits .f32 0x00000000#32)

/-- The layer at explicit coordinates. -/
theorem denseRelu_ix2 {M K N : Nat} (x : (⟨2, ![M, K]⟩ : Shape).Idx → EReal) (w : (⟨2, ![K, N]⟩ : Shape).Idx → EReal)
    (b : (⟨1, ![N]⟩ : Shape).Idx → EReal) (r : Fin M) (q : Fin N) :
    denseRelu x w b (ix2 r q)
      = max (∑ k : Fin K, x (ix2 r k) * w (ix2 k q) + b (ix1 q)) (Ideal.ofBits .f32 0x00000000#32) := rfl

/-- The accelerator's spelling of the layer on a block of `Mb` rows, at `(p, q)`. -/
theorem accel_apply {Mb K N : Nat}
    (wf : DotDims.WF ⟨2, ![Mb, K]⟩ ⟨2, ![K, N]⟩ ⟨2, ![Mb, N]⟩ [1] [0] [0] [1] [] [])
    (hx : (⟨2, ![Mb, K]⟩ : Shape).ShapeCasts ⟨2, ![Mb, K]⟩) (hlt : FTy.bits .bf16 < FTy.bits .f32)
    (hc : (⟨1, ![N]⟩ : Shape).ShapeCasts ⟨2, ![1, N]⟩) (hbc : (⟨2, ![1, N]⟩ : Shape).Broadcasts ⟨2, ![Mb, N]⟩)
    (x : FVec Ideal ⟨2, ![Mb, K]⟩ .f32) (w : FVec Ideal ⟨2, ![K, N]⟩ .f32) (b : FVec Ideal ⟨1, ![N]⟩ .f32)
    (p : Fin Mb) (q : Fin N) :
    maximumf
        (addf
          (FloatOps.matmul (mmDims Mb K N wf) none (truncf .bf16 (shapeCast ⟨2, ![Mb, K]⟩ x hx) hlt) (truncf .bf16 w hlt)
            (constant ⟨2, ![Mb, N]⟩ .f32 0x00000000#32))
          (broadcastTo ⟨2, ![Mb, N]⟩ (shapeCast ⟨2, ![1, N]⟩ b hc) hbc))
        (broadcast ⟨2, ![Mb, N]⟩ (Scalar.ofBits .f32 0x00000000#32)) (ix2 p q)
      = max (∑ k : Fin K, x (ix2 p k) * w (ix2 k q) + b (ix1 q)) (Ideal.ofBits .f32 0x00000000#32) := by
  rw [maximumf_apply, addf_apply, matmul_zero_mm_apply wf none _ _ p q, broadcastTo_1b_ab_apply _ hbc p q,
    shapeCast_a_1a_apply b hc 0 q, shapeCast_self x hx, broadcast_apply]
  simp only [truncf_apply]
  rfl

/-- A coordinate of an axis of extent `N` is what the broadcast rule reads: `0` on a unit axis,
    itself otherwise. -/
private theorem coord_of_unit {N : Nat} (q : Fin N) : q.val = if N = 1 then 0 else q.val := by
  split
  · have := q.isLt; omega
  · rfl

/-- The host's spelling of the layer on the whole `[M, K]` array is the layer. -/
theorem host_eq {M K N : Nat}
    (wf : DotDims.WF ⟨2, ![M, K]⟩ ⟨2, ![K, N]⟩ ⟨2, ![M, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (x : FVec Ideal ⟨2, ![M, K]⟩ .f32) (w : FVec Ideal ⟨2, ![K, N]⟩ .f32) (b : FVec Ideal ⟨1, ![N]⟩ .f32) :
    maximumf
        (addf (Host.dotGeneral (mmDims M K N wf) none x w)
          (broadcastInDim ⟨2, ![M, N]⟩ ![0, 1] h2 (broadcastInDim ⟨2, ![1, N]⟩ ![1] h1 b)))
        (broadcastInDim ⟨2, ![M, N]⟩ ![] h0 (constant ⟨0, ![]⟩ .f32 0x00000000#32))
      = denseRelu x w b := by
  funext i
  obtain ⟨r, q, rfl⟩ : ∃ (r : Fin M) (q : Fin N), i = ix2 r q := ⟨i 0, i 1, eq_ix2 i⟩
  rw [denseRelu_ix2, maximumf_apply, addf_apply, host_dotGeneral_mm_apply wf none x w r q,
    broadcastInDim_apply ![0, 1] h2 _ (ix2 r q) (ix2 (0 : Fin 1) q) (fun a => by
      match a with
      | ⟨0, _⟩ => rfl
      | ⟨1, _⟩ => exact coord_of_unit q),
    broadcastInDim_apply ![1] h1 b (ix2 (0 : Fin 1) q) (ix1 q) (fun a => by
      match a with
      | ⟨0, _⟩ => exact coord_of_unit q),
    broadcastInDim_apply ![] h0 _ (ix2 r q) ix0 (fun a => a.elim0), constant_apply]

end Idealize.ShloMosaic.DenseRelu

end
-- ==== Proof.Region0.lean ====
/-
  What the first dense layer's launch leaves in its output array.

  The launch walks ten grid points; point `t` reads rows `5000 t … 5000 t + 4999` of the aggregated
  features (all 128 columns), the whole weight matrix and the whole bias, and writes back rows
  `5000 t … 5000 t + 4999` of the output (all 256 columns). The body's one store holds, at `(p, q)` of
  the block, `max (∑ k, x[p, k] * w[k, q] + b[q]) 0`; since row `5000 t + p` of the layer depends on
  that row of the input only, this is the layer of the WHOLE input read at `(5000 t + p, q)`. The ten
  row blocks cover the output array, so the array ends at the layer of the arrays the launch found.
-/
import proofs.«130371_j2637109919866_1_alg».proof.Proof.Gen.KernelIdeal.Frame
import proofs.«130371_j2637109919866_1_alg».proof.Proof.Spec
import Idealize.ShloMosaic.Lib.Pipeline.Value

set_option maxRecDepth 16384

noncomputable section

open scoped BigOperators

namespace Cert.KernelIdeal.Layers

open Cert.KernelIdeal Cert.KernelIdeal.Gen
open Idealize.ShloMosaic Idealize.ShloMosaic.TcCoe Idealize.SL.Sem
open Idealize.ShloMosaic.ValueIdx Idealize.ShloMosaic.DenseRelu
open Idealize.ShloMosaic.Pipeline (Dat)

variable (V : (c : Dev nD) → (b : Ref sig .tc) → Buf (Elt Ideal) ((c : Thread nD τ).loc b))

private theorem origin2 : (![0, 0] : Fin 2 → Nat) = fun _ => 0 := funext fun a => by fin_cases a <;> rfl
private theorem origin1 : (![0] : Fin 1 → Nat) = fun _ => 0 := funext fun a => by fin_cases a; rfl

/-- The body's store at `(p, q)` of the block, from the three loaded blocks. -/
theorem pay0_apply (x0 : Vec Ideal S5000x128 .f32) (x1 : Vec Ideal S128x256 .f32) (x2 : Vec Ideal S256 .f32)
    (p : Fin 5000) (q : Fin 256) :
    k0_pay1 x0 x1 x2 (ix2 p q)
      = max (∑ k : Fin 128, x0 (ix2 p k) * x1 (ix2 k q) + x2 (ix1 q)) (Ideal.ofBits .f32 0x00000000#32) :=
  accel_apply _ _ _ _ _ x0 x1 x2 p q

/-- The printed index maps over the grid: the row-blocked windows sit at block row `t`, column block
    0; the weight and bias windows at block 0. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The layer of the arrays the launch finds. -/
abbrev layer0 (c : Dev nD) : S50000x256.Idx → EReal :=
  denseRelu (M := 50000) (K := 128) (N := 256) (V c main_v16) (V c main_arg4) (V c main_arg5)

/-- Row `p` of point `t`'s block is row `5000 t + p` of the array. -/
def row0 (t : Fin cfg0.N) (p : Fin 5000) : Fin 50000 :=
  ⟨t.val * 5000 + p.val, by have ht : t.val < 10 := N_0 ▸ t.isLt; have := p.isLt; omega⟩

/-- Entry `(p, k)` of the input block at point `t` is entry `(5000 t + p, k)` of the input array. -/
theorem read0_0 (c : Dev nD) (t : Fin cfg0.N) (p : Fin 5000) (k : Fin 128) :
    iblk0 V c 0 t (ix2 p k) = V c main_v16 (ix2 (row0 t p) k) := by
  obtain ⟨e00, e01, -⟩ := index_facts0 t
  show V c main_v16 (((cfg0.win 0).blk t).view.emb (ix2 p k)) = _
  refine congrArg (V c main_v16) (funext fun a => Fin.ext ?_)
  match a with
  | ⟨0, _⟩ => show win0_0.index t (0 : Fin 2) * 5000 + 1 * p.val = t.val * 5000 + p.val; rw [e00]; omega
  | ⟨1, _⟩ => show win0_0.index t (1 : Fin 2) * 128 + 1 * k.val = k.val; rw [e01]; omega

/-- The weight block at every point is the whole weight array. -/
theorem read0_1 (c : Dev nD) (t : Fin cfg0.N) (y : S128x256.Idx) :
    iblk0 V c 1 t y = V c main_arg4 y := by
  obtain ⟨-, -, e10, e11, -⟩ := index_facts0 t
  show V c main_arg4 (((cfg0.win 1).blk t).view.emb y) = _
  refine congrArg (V c main_arg4) (funext fun a => Fin.ext ?_)
  match a with
  | ⟨0, _⟩ => show win0_1.index t (0 : Fin 2) * 128 + 1 * (y 0).val = (y 0).val; rw [e10]; omega
  | ⟨1, _⟩ => show win0_1.index t (1 : Fin 2) * 256 + 1 * (y 1).val = (y 1).val; rw [e11]; omega

/-- The bias block at every point is the whole bias array. -/
theorem read0_2 (c : Dev nD) (t : Fin cfg0.N) (y : S256.Idx) :
    iblk0 V c 2 t y = V c main_arg5 y := by
  obtain ⟨-, -, -, -, e20, -⟩ := index_facts0 t
  show V c main_arg5 (((cfg0.win 2).blk t).view.emb y) = _
  refine congrArg (V c main_arg5) (funext fun a => Fin.ext ?_)
  match a with
  | ⟨0, _⟩ => show win0_2.index t (0 : Fin 1) * 256 + 1 * (y 0).val = (y 0).val; rw [e20]; omega

/-- Entry `(p, q)` of the output block at point `t` is entry `(5000 t + p, q)` of the output array. -/
theorem emb0_3 (t : Fin cfg0.N) (p : Fin 5000) (q : Fin 256) :
    ((cfg0.win 3).blk t).view.emb (ix2 p q) = ix2 (row0 t p) q := by
  obtain ⟨-, -, -, -, -, e30, e31⟩ := index_facts0 t
  refine funext fun a => Fin.ext ?_
  match a with
  | ⟨0, _⟩ => show win0_3.index t (0 : Fin 2) * 5000 + 1 * p.val = t.val * 5000 + p.val; rw [e30]; omega
  | ⟨1, _⟩ => show win0_3.index t (1 : Fin 2) * 256 + 1 * q.val = q.val; rw [e31]; omega

/-- What point `t` writes back is block `t` of the layer of the arrays the launch finds. -/
theorem flushed0_eq (c : Dev nD) (t : Fin cfg0.N) :
    (dat0 V c).flushed 3 t = ((cfg0.win 3).blk t).view.read (Elt Ideal) (layer0 V c) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x256) origin2,
    View.ld_unit_zero (S := S256) origin1]
  funext j
  obtain ⟨p, q, rfl⟩ : ∃ (p : Fin 5000) (q : Fin 256), j = ix2 p q := ⟨j 0, j 1, eq_ix2 j⟩
  show k0_pay1 (iblk0 V c 0 t) (iblk0 V c 1 t) (iblk0 V c 2 t) (ix2 p q)
    = layer0 V c (((cfg0.win 3).blk t).view.emb (ix2 p q))
  refine (pay0_apply _ _ _ p q).trans ?_
  rw [emb0_3 t p q]
  unfold layer0
  rw [denseRelu_ix2]
  simp only [read0_0 V c t p, read0_1 V c t, read0_2 V c t]

/-- An index of the output array is in point `t`'s block iff each coordinate is in the block's
    range on its axis. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v17).slice (win0_3.rect t)).set ↔ _
  rw [View.set_slice_whole, Rect.mem_set_unit]
  exact Iff.rfl

/-- Row `r` of the output array lies in the block of point `r / 5000`, which is written back. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have ht : (i 0).val / 5000 < cfg0.N := by rw [show cfg0.N = 10 from N_0]; omega
  obtain ⟨-, -, -, -, -, e30, e31⟩ := index_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 256 ≤ (i 1).val
      ∧ (i 1).val < win0_3.index ⟨(i 0).val / 5000, ht⟩ (1 : Fin 2) * 256 + 256
    rw [e31]
    omega

/-- The output array after the launch: the layer of the arrays the launch found. -/
theorem arr0 (c : Dev nD) : (dat0 V c).arrAt 3 cfg0.N = layer0 V c :=
  (dat0 V c).arrAt_eq_of_cover 3 (layer0 V c) (fun t _ => flushed0_eq V c t) cover0

end Cert.KernelIdeal.Layers

end
-- ==== Proof.Region1.lean ====
/-
  What the second dense layer's launch leaves in its output array.

  The launch walks ten grid points; point `t` reads rows `5000 t … 5000 t + 4999` of the aggregated
  hidden features (all 256 columns), the whole weight matrix and the whole bias, and writes back rows
  `5000 t … 5000 t + 4999` of the output (all 128 columns). The body's one store holds, at `(p, q)` of
  the block, `max (∑ k, x[p, k] * w[k, q] + b[q]) 0`; since row `5000 t + p` of the layer depends on
  that row of the input only, this is the layer of the WHOLE input read at `(5000 t + p, q)`. The ten
  row blocks cover the output array, so the array ends at the layer of the arrays the launch found.
-/
import proofs.«130371_j2637109919866_1_alg».proof.Proof.Gen.KernelIdeal.Frame
import proofs.«130371_j2637109919866_1_alg».proof.Proof.Spec
import Idealize.ShloMosaic.Lib.Pipeline.Value

set_option maxRecDepth 16384

noncomputable section

open scoped BigOperators

namespace Cert.KernelIdeal.Layers

open Cert.KernelIdeal Cert.KernelIdeal.Gen
open Idealize.ShloMosaic Idealize.ShloMosaic.TcCoe Idealize.SL.Sem
open Idealize.ShloMosaic.ValueIdx Idealize.ShloMosaic.DenseRelu
open Idealize.ShloMosaic.Pipeline (Dat)

variable (V : (c : Dev nD) → (b : Ref sig .tc) → Buf (Elt Ideal) ((c : Thread nD τ).loc b))

private theorem origin2 : (![0, 0] : Fin 2 → Nat) = fun _ => 0 := funext fun a => by fin_cases a <;> rfl
private theorem origin1 : (![0] : Fin 1 → Nat) = fun _ => 0 := funext fun a => by fin_cases a; rfl

/-- The body's store at `(p, q)` of the block, from the three loaded blocks. -/
theorem pay1_apply (x0 : Vec Ideal S5000x256 .f32) (x1 : Vec Ideal S256x128 .f32) (x2 : Vec Ideal S128 .f32)
    (p : Fin 5000) (q : Fin 128) :
    k1_pay1 x0 x1 x2 (ix2 p q)
      = max (∑ k : Fin 256, x0 (ix2 p k) * x1 (ix2 k q) + x2 (ix1 q)) (Ideal.ofBits .f32 0x00000000#32) :=
  accel_apply _ _ _ _ _ x0 x1 x2 p q

/-- The printed index maps over the grid: the row-blocked windows sit at block row `t`, column block
    0; the weight and bias windows at block 0. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The layer of the arrays the launch finds. -/
abbrev layer1 (c : Dev nD) : S50000x128.Idx → EReal :=
  denseRelu (M := 50000) (K := 256) (N := 128) (V c main_v27) (V c main_arg6) (V c main_arg7)

/-- Row `p` of point `t`'s block is row `5000 t + p` of the array. -/
def row1 (t : Fin cfg1.N) (p : Fin 5000) : Fin 50000 :=
  ⟨t.val * 5000 + p.val, by have ht : t.val < 10 := N_1 ▸ t.isLt; have := p.isLt; omega⟩

/-- Entry `(p, k)` of the input block at point `t` is entry `(5000 t + p, k)` of the input array. -/
theorem read1_0 (c : Dev nD) (t : Fin cfg1.N) (p : Fin 5000) (k : Fin 256) :
    iblk1 V c 0 t (ix2 p k) = V c main_v27 (ix2 (row1 t p) k) := by
  obtain ⟨e00, e01, -⟩ := index_facts1 t
  show V c main_v27 (((cfg1.win 0).blk t).view.emb (ix2 p k)) = _
  refine congrArg (V c main_v27) (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 256 + 1 * k.val = k.val; rw [e01]; omega

/-- The weight block at every point is the whole weight array. -/
theorem read1_1 (c : Dev nD) (t : Fin cfg1.N) (y : S256x128.Idx) :
    iblk1 V c 1 t y = V c main_arg6 y := by
  obtain ⟨-, -, e10, e11, -⟩ := index_facts1 t
  show V c main_arg6 (((cfg1.win 1).blk t).view.emb y) = _
  refine congrArg (V c main_arg6) (funext fun a => Fin.ext ?_)
  match a with
  | ⟨0, _⟩ => show win1_1.index t (0 : Fin 2) * 256 + 1 * (y 0).val = (y 0).val; rw [e10]; omega
  | ⟨1, _⟩ => show win1_1.index t (1 : Fin 2) * 128 + 1 * (y 1).val = (y 1).val; rw [e11]; omega

/-- The bias block at every point is the whole bias array. -/
theorem read1_2 (c : Dev nD) (t : Fin cfg1.N) (y : S128.Idx) :
    iblk1 V c 2 t y = V c main_arg7 y := by
  obtain ⟨-, -, -, -, e20, -⟩ := index_facts1 t
  show V c main_arg7 (((cfg1.win 2).blk t).view.emb y) = _
  refine congrArg (V c main_arg7) (funext fun a => Fin.ext ?_)
  match a with
  | ⟨0, _⟩ => show win1_2.index t (0 : Fin 1) * 128 + 1 * (y 0).val = (y 0).val; rw [e20]; omega

/-- Entry `(p, q)` of the output block at point `t` is entry `(5000 t + p, q)` of the output array. -/
theorem emb1_3 (t : Fin cfg1.N) (p : Fin 5000) (q : Fin 128) :
    ((cfg1.win 3).blk t).view.emb (ix2 p q) = ix2 (row1 t p) q := by
  obtain ⟨-, -, -, -, -, e30, e31⟩ := index_facts1 t
  refine funext fun a => Fin.ext ?_
  match a with
  | ⟨0, _⟩ => show win1_3.index t (0 : Fin 2) * 5000 + 1 * p.val = t.val * 5000 + p.val; rw [e30]; omega
  | ⟨1, _⟩ => show win1_3.index t (1 : Fin 2) * 128 + 1 * q.val = q.val; rw [e31]; omega

/-- What point `t` writes back is block `t` of the layer of the arrays the launch finds. -/
theorem flushed1_eq (c : Dev nD) (t : Fin cfg1.N) :
    (dat1 V c).flushed 3 t = ((cfg1.win 3).blk t).view.read (Elt Ideal) (layer1 V c) := by
  show (cfg1.win 3).cut (grid1.coords t) ((dat1 V c).after 3 t) = _
  rw [after1_3]
  unfold out1_3
  rw [View.canon_unit_zero origin2]
  simp only [View.ld_unit_zero (S := S5000x256) origin2, View.ld_unit_zero (S := S256x128) origin2,
    View.ld_unit_zero (S := S128) origin1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = layer1 V c (((cfg1.win 3).blk t).view.emb (ix2 p q))
  refine (pay1_apply _ _ _ p q).trans ?_
  rw [emb1_3 t p q]
  unfold layer1
  rw [denseRelu_ix2]
  simp only [read1_0 V c t p, read1_1 V c t, read1_2 V c t]

/-- An index of the output array is in point `t`'s block iff each coordinate is in the block's
    range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v28).slice (win1_3.rect t)).set ↔ _
  rw [View.set_slice_whole, Rect.mem_set_unit]
  exact Iff.rfl

/-- Row `r` of the output array lies in the block of point `r / 5000`, which is written back. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, -, -, e30, e31⟩ := index_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e31]
    omega

/-- The output array after the launch: the layer of the arrays the launch found. -/
theorem arr1 (c : Dev nD) : (dat1 V c).arrAt 3 cfg1.N = layer1 V c :=
  (dat1 V c).arrAt_eq_of_cover 3 (layer1 V c) (fun t _ => flushed1_eq V c t) cover1

end Cert.KernelIdeal.Layers

end
-- ==== Proof.HostChain.lean ====
/-
  The contents of the buffers the two launches read and write, traced through @main.

  @main gathers the embedding rows of the concept ids, sums over each node's incoming edges the
  rows of their source nodes, applies the first dense layer (a launch), sums the hidden rows over
  the incoming edges again, and applies the second dense layer (a launch). The host operations
  write fresh buffers only, so each launch finds the weights and the bias as launched, and its
  row-blocked input at the host operations' term of what was there before. The gathers and the
  scatter-sums are carried as named functions of their operands and never opened: the reference
  applies the very same ones.
-/
import proofs.«130371_j2637109919866_1_alg».proof.Proof.Gen.KernelIdeal.Frame
import proofs.«130371_j2637109919866_1_alg».proof.Proof.Region0
import proofs.«130371_j2637109919866_1_alg».proof.Proof.Region1
import Idealize.ShloMosaic.Lib.StableHlo.Run

set_option maxRecDepth 16384

noncomputable section

namespace Cert.KernelIdeal.Chain

open Cert.KernelIdeal Cert.KernelIdeal.Gen Cert.KernelIdeal.Layers
open Idealize.ShloMosaic Idealize.ShloMosaic.TcCoe Idealize.SL.Sem Idealize.ShloMosaic.StableHlo
open Idealize.ShloMosaic.DenseRelu
open Idealize.ShloMosaic.Pipeline (Dat)

/-! ## The host stretches as functions of their operands -/

/-- The indexing rule for a table of 799273 rows: a negative index counts from the end. -/
def wrapConcept (ids : IVec S50000 32) : IVec S50000 32 :=
  select (cmpi .slt ids (broadcastInDim S50000 ![] bcast_S_S50000 (constantI S_ 32 0#32)))
    (addi ids (broadcastInDim S50000 ![] bcast_S_S50000 (constantI S_ 32 799273#32))) ids

/-- The same rule for a table of 50000 rows. -/
def wrapNode (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- Each node's input feature: its concept's embedding row. -/
def features (ids : IVec S50000 32) (emb : FVec Ideal S799273x128 .f32) :
    FVec Ideal S50000x128 .f32 :=
  Host.gather gather_S799273x128_S50000x1_S50000x128_1_0_n_n_0_1_1128 emb
    (broadcastInDim S50000x1 ![0] bcast_S50000_S50000x1_0 (wrapConcept ids))

/-- Each node's sum, over its incoming edges, of the source nodes' 128-wide rows. -/
def neighbourSum128 (h : FVec Ideal S50000x128 .f32)
    (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0 (wrapNode src)))

/-- The same sum of the 256-wide hidden rows. -/
def neighbourSum256 (h : FVec Ideal S50000x256 .f32)
    (src dst : IVec S800000 32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 h
      (broadcastInDim S800000x1 ![0] bcast_S800000_S800000x1_0 (wrapNode src)))

/-- The whole network on the arguments: two rounds of neighbour sum and dense layer. -/
def network (ids : IVec S50000 32) (src dst : IVec S800000 32)
    (emb : FVec Ideal S799273x128 .f32) (w1 : FVec Ideal S128x256 .f32)
    (b1 : FVec Ideal S256 .f32) (w2 : FVec Ideal S256x128 .f32)
    (b2 : FVec Ideal S128 .f32) : FVec Ideal S50000x128 .f32 :=
  denseRelu (M := 50000) (K := 256) (N := 128)
    (neighbourSum256 (denseRelu (M := 50000) (K := 128) (N := 256) (neighbourSum128 (features ids emb) src dst) w1 b1) src dst) w2 b2

variable (m : (ℓ : Loc nD τ sig) → Buf (Elt Ideal) ℓ) (ρ : Dev nD → PrngReg)

/-! ## The first launch -/

theorem V1_arg4 (c : Dev nD) : V1 m ρ c main_arg4 = m ((c : Thread nD τ).loc main_arg4) := by
  show StableHlo.after hostOps0 (W0 m ρ c) (Proc.devRef .tc main_arg4) = _
  after_results

theorem V1_arg5 (c : Dev nD) : V1 m ρ c main_arg5 = m ((c : Thread nD τ).loc main_arg5) := by
  show StableHlo.after hostOps0 (W0 m ρ c) (Proc.devRef .tc main_arg5) = _
  after_results

set_option maxHeartbeats 2000000 in
/-- The first launch finds, in its row-blocked input, the neighbour sums of the features. -/
theorem V1_v16 (c : Dev nD) : V1 m ρ c main_v16
    = neighbourSum128 (features (m ((c : Thread nD τ).loc main_arg0)) (m ((c : Thread nD τ).loc main_arg3)))
        (m ((c : Thread nD τ).loc main_arg1)) (m ((c : Thread nD τ).loc main_arg2)) := by
  show StableHlo.after hostOps0 (W0 m ρ c) (Proc.devRef .tc main_v16) = _
  after_results_simp <;> rfl

/-- After the first launch its output array holds the first layer of those sums. -/
theorem W2_v17 (c : Dev nD) : W2 m ρ c (Proc.devRef .tc main_v17)
    = denseRelu (M := 50000) (K := 128) (N := 256)
        (neighbourSum128 (features (m ((c : Thread nD τ).loc main_arg0)) (m ((c : Thread nD τ).loc main_arg3)))
          (m ((c : Thread nD τ).loc main_arg1)) (m ((c : Thread nD τ).loc main_arg2)))
        (m ((c : Thread nD τ).loc main_arg4)) (m ((c : Thread nD τ).loc main_arg5)) := by
  refine (W2_arr m ρ c 3).trans ((arr0 (V1 m ρ) c).trans ?_)
  unfold layer0
  rw [V1_v16, V1_arg4, V1_arg5]

/-! ## The second launch -/

/-- The first launch leaves the edge lists, and the second layer's weights and bias, as launched. -/
theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

theorem V3_arg6 (c : Dev nD) : V3 m ρ c main_arg6 = m ((c : Thread nD τ).loc main_arg6) := by
  refine Eq.trans ?_ (W2_arg6 m ρ c)
  show StableHlo.after hostOps1 (W2 m ρ c) (Proc.devRef .tc main_arg6) = _
  after_results

theorem V3_arg7 (c : Dev nD) : V3 m ρ c main_arg7 = m ((c : Thread nD τ).loc main_arg7) := by
  refine Eq.trans ?_ (W2_arg7 m ρ c)
  show StableHlo.after hostOps1 (W2 m ρ c) (Proc.devRef .tc main_arg7) = _
  after_results

set_option maxHeartbeats 2000000 in
/-- The second launch finds, in its row-blocked input, the neighbour sums of what the first launch
    left in its output array. -/
theorem V3_v27 (c : Dev nD) : V3 m ρ c main_v27
    = neighbourSum256 (W2 m ρ c (Proc.devRef .tc main_v17)) (W2 m ρ c (Proc.devRef .tc main_arg1))
        (W2 m ρ c (Proc.devRef .tc main_arg2)) := by
  show StableHlo.after hostOps1 (W2 m ρ c) (Proc.devRef .tc main_v27) = _
  after_results_simp <;> rfl

/-- After the second launch the result array holds the network of the arguments. -/
theorem W4_v28 (c : Dev nD) : W4 m ρ c (Proc.devRef .tc main_v28)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 3).trans ((arr1 (V3 m ρ) c).trans ?_)
  unfold layer1 network
  rw [V3_v27, V3_arg6, V3_arg7, W2_v17, W2_arg1, W2_arg2]

end Cert.KernelIdeal.Chain

end
-- ==== Proof.RefLayers.lean ====
/-
  The reference's two dense layers are the layer read index by index.

  The reference applies, to the whole `[50000, K]` array of neighbour sums, the general dot product
  with the weights, adds the bias broadcast over the rows, and takes the maximum with zero: at
  `(r, q)` that is `max (∑ k, x[r, k] * w[k, q] + b[q]) 0`, for the first layer with 128 inputs and
  256 outputs and for the second with 256 inputs and 128 outputs.
-/
import proofs.«130371_j2637109919866_1_alg».proof.Proof.Gen.ReferenceIdeal
import proofs.«130371_j2637109919866_1_alg».proof.Proof.Spec

noncomputable section

namespace Cert.ReferenceIdeal.Layers

open Cert.ReferenceIdeal Cert.ReferenceIdeal.Gen
open Idealize.ShloMosaic Idealize.ShloMosaic.DenseRelu

/-- The first layer as the reference spells it. -/
theorem layerA_eq (x : FVec Ideal S50000x128 .f32) (w : FVec Ideal S128x256 .f32) (b : FVec Ideal S256 .f32) :
    maximumf
        (addf (Host.dotGeneral dot_S50000x128_S128x256_S50000x256_1_0_0_1_n_n none x w)
          (broadcastInDim S50000x256 ![0, 1] bcast_S1x256_S50000x256_0_1 (broadcastInDim S1x256 ![1] bcast_S256_S1x256_1 b)))
        (broadcastInDim S50000x256 ![] bcast_S_S50000x256 (constant S_ .f32 0x00000000#32))
      = denseRelu (M := 50000) (K := 128) (N := 256) x w b :=
  host_eq _ _ _ _ x w b

/-- The second layer as the reference spells it. -/
theorem layerB_eq (x : FVec Ideal S50000x256 .f32) (w : FVec Ideal S256x128 .f32) (b : FVec Ideal S128 .f32) :
    maximumf
        (addf (Host.dotGeneral dot_S50000x256_S256x128_S50000x128_1_0_0_1_n_n none x w)
          (broadcastInDim S50000x128 ![0, 1] bcast_S1x128_S50000x128_0_1 (broadcastInDim S1x128 ![1] bcast_S128_S1x128_1 b)))
        (broadcastInDim S50000x128 ![] bcast_S_S50000x128 (constant S_ .f32 0x00000000#32))
      = denseRelu (M := 50000) (K := 256) (N := 128) x w b :=
  host_eq _ _ _ _ x w b

end Cert.ReferenceIdeal.Layers

end
-- ==== Proof.lean ====
/-
  Two rounds of "sum the neighbours' rows, then a dense layer with a rectifier" on a graph of
  50000 nodes and 800000 edges: the kernel program against its jnp reference.

  Both programs gather each node's embedding row, sum over each node's incoming edges the rows of
  the edges' source nodes (a gather and a scatter-sum on the host), apply `relu (a · W1 + b1)`, sum
  the hidden rows over the incoming edges again, and apply `relu (a · W2 + b2)`. The gathers and
  the scatter-sums are the same host operations in both programs and are never opened. The two
  dense layers differ in spelling only: the kernel program computes each as a launch over ten
  blocks of 5000 rows, narrowing both operands to bf16 (the identity over the extended reals),
  multiplying into an all-zero accumulator, adding the bias as one broadcast row and taking the
  maximum with zero; the reference multiplies the whole arrays on the host. At an index `(r, q)`
  both are `max (∑ k, x[r, k] * w[k, q] + b[q]) 0`, and a row of the result depends on that row of
  the input only, so the ten row blocks together are the layer of the whole array. No law that
  would need finite entries is used: the precondition is not opened.

  The modules: the layer index by index and its two spellings (Spec, over the matrix-product
  lemmas of LibDot2); what each launch leaves in its output array (Region0, Region1); the contents
  of the buffers traced through @main (HostChain) under the run of @main with the result array
  named (KernelIdealRun); the reference's layers (RefLayers) under its run.
-/
import proofs.«130371_j2637109919866_1_alg».proof.Defs
import proofs.«130371_j2637109919866_1_alg».proof.Proof.Gen.Kernel
import proofs.«130371_j2637109919866_1_alg».proof.Proof.Gen.Kernel.Frame
import proofs.«130371_j2637109919866_1_alg».proof.Proof.Gen.KernelIdeal
import proofs.«130371_j2637109919866_1_alg».proof.Proof.Gen.KernelIdeal.Frame
import proofs.«130371_j2637109919866_1_alg».proof.Proof.Gen.ReferenceIdeal
import proofs.«130371_j2637109919866_1_alg».proof.Proof.Gen.ReferenceIdeal.Run
import proofs.«130371_j2637109919866_1_alg».proof.Proof.Gen.Pre_finite_inputs
import proofs.«130371_j2637109919866_1_alg».proof.Proof.KernelIdealRun
import proofs.«130371_j2637109919866_1_alg».proof.Proof.HostChain
import proofs.«130371_j2637109919866_1_alg».proof.Proof.RefLayers
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the arguments in their result array. -/
theorem algebraic : Cert.algebraic_KernelIdeal_ReferenceIdeal := by
  intro m ρ m' ρ' _ hagree
  refine ⟨fun c => Cert.KernelIdeal.Chain.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.W4_v28 m ρ c), (h c).2⟩)
      (Cert.KernelIdeal.RunAll.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Layers.layerB_eq, Cert.ReferenceIdeal.Layers.layerA_eq, h0, h1, h2, h3, h4, h5, h6, h7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
